-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3200000x16 : Shape := ⟨2, ![3200000, 16]⟩
abbrev S16x32 : Shape := ⟨2, ![16, 32]⟩
abbrev S32 : Shape := ⟨1, ![32]⟩
abbrev S32x8 : Shape := ⟨2, ![32, 8]⟩
abbrev S8 : Shape := ⟨1, ![8]⟩
abbrev S16x8 : Shape := ⟨2, ![16, 8]⟩
abbrev S_ : Shape := ⟨0, ![]⟩

class Facts : Prop where
  bcast_S_S3200000x16 : S_.BroadcastsInDim S3200000x16 (![] : Fin 0 → Fin S3200000x16.rank)
  reducesTo_S3200000x16_S_d0_1 : S3200000x16.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_
  bcast_S_S16x8 : S_.BroadcastsInDim S16x8 (![] : Fin 0 → Fin S16x8.rank)
  reducesTo_S16x8_S_d0_1 : S16x8.ReducesTo [0, 1] S_

variable [Facts]

def fn_part1 {F : FTy → Type} [FloatOps F] (main_arg4 : FVec F S8 .f32) (main_arg5 : FVec F S16x8 .f32) (main_v13 : IVec S_ 1) (main_v16 : IVec S32x8 1) : IVec S_ 1 :=
  let main_c_5 : IVec S_ 1 := constantI S_ 1 1#1
  let main_v17 : IVec S_ 1 := (fun x v => Host.reduce IntOp.andi x v reducesTo_S32x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S16x8 .f32 := Host.absf main_arg5
  let main_cst_8 : FVec F S_ .f32 := constant S_ .f32 0x7F800000#32
  let main_v25 : FVec F S16x8 .f32 := broadcastInDim S16x8 ![] bcast_S_S16x8 main_cst_8
  let main_v26 : IVec S16x8 1 := cmpf .olt main_v24 main_v25
  let main_c_9 : IVec S_ 1 := constantI S_ 1 1#1
  let main_v27 : IVec S_ 1 := (fun x v => Host.reduce IntOp.andi x v reducesTo_S16x8_S_d0_1 h_S_) main_v26 main_c_9
  let main_v28 : IVec S_ 1 := andi main_v23 main_v27
  main_v28

def fn {F : FTy → Type} [FloatOps F] (main_arg0 : FVec F S3200000x16 .f32) (main_arg1 : FVec F S16x32 .f32) (main_arg2 : FVec F S32 .f32) (main_arg3 : FVec F S32x8 .f32) (main_arg4 : FVec F S8 .f32) (main_arg5 : FVec F S16x8 .f32) : IVec S_ 1 :=
  let main_v0 : FVec F S3200000x16 .f32 := Host.absf main_arg0
  let main_cst : FVec F S_ .f32 := constant S_ .f32 0x7F800000#32
  let main_v1 : FVec F S3200000x16 .f32 := broadcastInDim S3200000x16 ![] bcast_S_S3200000x16 main_cst
  let main_v2 : IVec S3200000x16 1 := cmpf .olt main_v0 main_v1
  let main_c : IVec S_ 1 := constantI S_ 1 1#1
  let main_v3 : IVec S_ 1 := (fun x v => Host.reduce IntOp.andi x v reducesTo_S3200000x16_S_d0_1 h_S_) main_v2 main_c
  let main_v4 : FVec F S16x32 .f32 := Host.absf main_arg1
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x8 .f32 := Host.absf main_arg3
  let main_cst_4 : FVec F S_ .f32 := constant S_ .f32 0x7F800000#32
  let main_v15 : FVec F S32x8 .f32 := broadcastInDim S32x8 ![] bcast_S_S32x8 main_cst_4
  let main_v16 : IVec S32x8 1 := cmpf .olt main_v14 main_v15
  fn_part1 (F := F) main_arg4 main_arg5 main_v13 main_v16
-- ==== Kernel.lean ====
abbrev S3200000x16 : Shape := ⟨2, ![3200000, 16]⟩
abbrev S16x32 : Shape := ⟨2, ![16, 32]⟩
abbrev S32 : Shape := ⟨1, ![32]⟩
abbrev S32x8 : Shape := ⟨2, ![32, 8]⟩
abbrev S8 : Shape := ⟨1, ![8]⟩
abbrev S16x8 : Shape := ⟨2, ![16, 8]⟩
abbrev S1x32 : Shape := ⟨2, ![1, 32]⟩
abbrev S1x8 : Shape := ⟨2, ![1, 8]⟩
abbrev S3200000x8 : Shape := ⟨2, ![3200000, 8]⟩
abbrev S3200000 : Shape := ⟨1, ![3200000]⟩
abbrev S5120x16 : Shape := ⟨2, ![5120, 16]⟩
abbrev S5120x8 : Shape := ⟨2, ![5120, 8]⟩
abbrev S5120 : Shape := ⟨1, ![5120]⟩
abbrev S5120x32 : Shape := ⟨2, ![5120, 32]⟩
abbrev S5120x1 : Shape := ⟨2, ![5120, 1]⟩

abbrev nBuf : Space → Nat
  | .hbm => 10
  | .vmem => 11
  | .smem => 0
  | _ => 0

abbrev bufTy : (tb : Table) → Fin (tcTables nBuf tb) → BufTy
  | .hbm, ⟨0, _⟩ => ⟨S3200000x16, .f32⟩
  | .hbm, ⟨1, _⟩ => ⟨S16x32, .f32⟩
  | .hbm, ⟨2, _⟩ => ⟨S32, .f32⟩
  | .hbm, ⟨3, _⟩ => ⟨S32x8, .f32⟩
  | .hbm, ⟨4, _⟩ => ⟨S8, .f32⟩
  | .hbm, ⟨5, _⟩ => ⟨S16x8, .f32⟩
  | .hbm, ⟨6, _⟩ => ⟨S1x32, .f32⟩
  | .hbm, ⟨7, _⟩ => ⟨S1x8, .f32⟩
  | .hbm, ⟨8, _⟩ => ⟨S3200000x8, .f32⟩
  | .hbm, ⟨9, _⟩ => ⟨S3200000, .f32⟩
  | .local _ .vmem, ⟨0, _⟩ => ⟨S5120x16, .f32⟩
  | .local _ .vmem, ⟨1, _⟩ => ⟨S5120x16, .f32⟩
  | .local _ .vmem, ⟨2, _⟩ => ⟨S16x32, .f32⟩
  | .local _ .vmem, ⟨3, _⟩ => ⟨S1x32, .f32⟩
  | .local _ .vmem, ⟨4, _⟩ => ⟨S32x8, .f32⟩
  | .local _ .vmem, ⟨5, _⟩ => ⟨S1x8, .f32⟩
  | .local _ .vmem, ⟨6, _⟩ => ⟨S16x8, .f32⟩
  | .local _ .vmem, ⟨7, _⟩ => ⟨S5120x8, .f32⟩
  | .local _ .vmem, ⟨8, _⟩ => ⟨S5120x8, .f32⟩
  | .local _ .vmem, ⟨9, _⟩ => ⟨S5120, .f32⟩
  | .local _ .vmem, ⟨10, _⟩ => ⟨S5120, .f32⟩
  | _, _ => ⟨S3200000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0_1 : Ref sig .tc := ⟨.hbm, 8, rfl⟩
abbrev main_v0_0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![625], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S5120x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5120x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5120 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S32_S1x32 : S32.ShapeCasts S1x32
  shapeCasts_S8_S1x8 : S8.ShapeCasts S1x8
  inb_S5120x16_S5120x16_0_0 : ∀ a, (![0, 0] : Fin 2 → Nat) a + S5120x16.size a ≤ S5120x16.size a
  h_S5120x16 : 0 < S5120x16.numel
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5120x32 : S1x32.Broadcasts S5120x32
  inb_S32x8_S32x8_0_0 : ∀ a, (![0, 0] : Fin 2 → Nat) a + S32x8.size a ≤ S32x8.size a
  h_S32x8 : 0 < S32x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5120x8 : S1x8.Broadcasts S5120x8
  reduces_S5120x8_S5120 : S5120x8.Reduces [1] S5120
  shapeCasts_S5120_S5120x1 : S5120.ShapeCasts S5120x1
  broadcasts_S5120x1_S5120x8 : S5120x1.Broadcasts S5120x8
  inb_S16x8_S16x8_0_0 : ∀ a, (![0, 0] : Fin 2 → Nat) a + S16x8.size a ≤ S16x8.size a
  h_S16x8 : 0 < S16x8.numel
  inb_S5120x8_S5120x8_0_0 : ∀ a, (![0, 0] : Fin 2 → Nat) a + S5120x8.size a ≤ S5120x8.size a
  h_S5120x8 : 0 < S5120x8.numel
  inb_S5120_S5120_0 : ∀ a, (![0] : Fin 1 → Nat) a + S5120.size a ≤ S5120.size a
  h_S5120 : 0 < S5120.numel
  dot_S5120x16_S16x32_S5120x32_1_0_0_1_n_n_wf : DotDims.WF S5120x16 S16x32 S5120x32 [1] [0] [0] [1] [] []
  dot_S5120x32_S32x8_S5120x8_1_0_0_1_n_n_wf : DotDims.WF S5120x32 S32x8 S5120x8 [1] [0] [0] [1] [] []
  dot_S5120x16_S16x8_S5120x8_1_0_0_1_n_n_wf : DotDims.WF S5120x16 S16x8 S5120x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5120x16.size a ≤ S3200000x16.size a
  hwx0_0 : ∀ i : grid0.Coords, EltTy.bits .f32 = 32 ∨ (Rect.block (s := S3200000x16) S5120x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x32.size a ≤ S16x32.size a
  hwx0_1 : ∀ i : grid0.Coords, EltTy.bits .f32 = 32 ∨ (Rect.block (s := S16x32) S16x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x8.size a ≤ S32x8.size a
  hwx0_3 : ∀ i : grid0.Coords, EltTy.bits .f32 = 32 ∨ (Rect.block (s := S32x8) S32x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x8.size a ≤ S16x8.size a
  hwx0_5 : ∀ i : grid0.Coords, EltTy.bits .f32 = 32 ∨ (Rect.block (s := S16x8) S16x8.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5120x8.size a ≤ S3200000x8.size a
  hwx0_6 : ∀ i : grid0.Coords, EltTy.bits .f32 = 32 ∨ (Rect.block (s := S3200000x8) S5120x8.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5120.size a ≤ S3200000.size a
  hwx0_7 : ∀ i : grid0.Coords, EltTy.bits .f32 = 32 ∨ (Rect.block (s := S3200000) S5120.size (cc0_transform_7 i) (hinb0_7 i)).WholeWords (EltTy.packing .f32)

variable [Facts₀]

def dot_S5120x16_S16x32_S5120x32_1_0_0_1_n_n : DotDims S5120x16 S16x32 S5120x32 where
  lhsContracting := [1]
  rhsContracting := [0]
  lhsNonContracting := [0]
  rhsNonContracting := [1]
  lhsBatch := []
  rhsBatch := []
  wf := dot_S5120x16_S16x32_S5120x32_1_0_0_1_n_n_wf
def dot_S5120x32_S32x8_S5120x8_1_0_0_1_n_n : DotDims S5120x32 S32x8 S5120x8 where
  lhsContracting := [1]
  rhsContracting := [0]
  lhsNonContracting := [0]
  rhsNonContracting := [1]
  lhsBatch := []
  rhsBatch := []
  wf := dot_S5120x32_S32x8_S5120x8_1_0_0_1_n_n_wf
def dot_S5120x16_S16x8_S5120x8_1_0_0_1_n_n : DotDims S5120x16 S16x8 S5120x8 where
  lhsContracting := [1]
  rhsContracting := [0]
  lhsNonContracting := [0]
  rhsNonContracting := [1]
  lhsBatch := []
  rhsBatch := []
  wf := dot_S5120x16_S16x8_S5120x8_1_0_0_1_n_n_wf

abbrev win0_0 : Pipeline.Window sig grid0 :=
  Pipeline.Window.ofSpec (Memref.whole main_arg0) S5120x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S5120x8.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S5120.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S3200000x16 : Shape := ⟨2, ![3200000, 16]⟩
abbrev S16x32 : Shape := ⟨2, ![16, 32]⟩
abbrev S32 : Shape := ⟨1, ![32]⟩
abbrev S32x8 : Shape := ⟨2, ![32, 8]⟩
abbrev S8 : Shape := ⟨1, ![8]⟩
abbrev S16x8 : Shape := ⟨2, ![16, 8]⟩
abbrev S3200000x32 : Shape := ⟨2, ![3200000, 32]⟩
abbrev S1x32 : Shape := ⟨2, ![1, 32]⟩
abbrev S_ : Shape := ⟨0, ![]⟩
abbrev S3200000x8 : Shape := ⟨2, ![3200000, 8]⟩
abbrev S1x8 : Shape := ⟨2, ![1, 8]⟩
abbrev S3200000 : Shape := ⟨1, ![3200000]⟩
abbrev S3200000x1 : Shape := ⟨2, ![3200000, 1]⟩

abbrev nBuf : Space → Nat
  | .hbm => 38
  | .vmem => 0
  | .smem => 0
  | _ => 0

abbrev bufTy : (tb : Table) → Fin (tcTables nBuf tb) → BufTy
  | .hbm, ⟨0, _⟩ => ⟨S3200000x16, .f32⟩
  | .hbm, ⟨1, _⟩ => ⟨S16x32, .f32⟩
  | .hbm, ⟨2, _⟩ => ⟨S32, .f32⟩
  | .hbm, ⟨3, _⟩ => ⟨S32x8, .f32⟩
  | .hbm, ⟨4, _⟩ => ⟨S8, .f32⟩
  | .hbm, ⟨5, _⟩ => ⟨S16x8, .f32⟩
  | .hbm, ⟨6, _⟩ => ⟨S3200000x32, .f32⟩
  | .hbm, ⟨7, _⟩ => ⟨S1x32, .f32⟩
  | .hbm, ⟨8, _⟩ => ⟨S3200000x32, .f32⟩
  | .hbm, ⟨9, _⟩ => ⟨S3200000x32, .f32⟩
  | .hbm, ⟨10, _⟩ => ⟨S_, .f32⟩
  | .hbm, ⟨11, _⟩ => ⟨S3200000x32, .f32⟩
  | .hbm, ⟨12, _⟩ => ⟨S3200000x32, .f32⟩
  | .hbm, ⟨13, _⟩ => ⟨S3200000x8, .f32⟩
  | .hbm, ⟨14, _⟩ => ⟨S1x8, .f32⟩
  | .hbm, ⟨15, _⟩ => ⟨S3200000x8, .f32⟩
  | .hbm, ⟨16, _⟩ => ⟨S3200000x8, .f32⟩
  | .hbm, ⟨17, _⟩ => ⟨S_, .f32⟩
  | .hbm, ⟨18, _⟩ => ⟨S3200000x8, .f32⟩
  | .hbm, ⟨19, _⟩ => ⟨S3200000x8, .f32⟩
  | .hbm, ⟨20, _⟩ => ⟨S_, .f32⟩
  | .hbm, ⟨21, _⟩ => ⟨S3200000, .f32⟩
  | .hbm, ⟨22, _⟩ => ⟨S_, .f32⟩
  | .hbm, ⟨23, _⟩ => ⟨S3200000, .f32⟩
  | .hbm, ⟨24, _⟩ => ⟨S3200000, .f32⟩
  | .hbm, ⟨25, _⟩ => ⟨S3200000x1, .f32⟩
  | .hbm, ⟨26, _⟩ => ⟨S3200000x8, .f32⟩
  | .hbm, ⟨27, _⟩ => ⟨S3200000x8, .f32⟩
  | .hbm, ⟨28, _⟩ => ⟨S3200000x8, .f32⟩
  | .hbm, ⟨29, _⟩ => ⟨S_, .f32⟩
  | .hbm, ⟨30, _⟩ => ⟨S3200000, .f32⟩
  | .hbm, ⟨31, _⟩ => ⟨S3200000x1, .f32⟩
  | .hbm, ⟨32, _⟩ => ⟨S3200000x8, .f32⟩
  | .hbm, ⟨33, _⟩ => ⟨S3200000x8, .f32⟩
  | .hbm, ⟨34, _⟩ => ⟨S3200000x8, .f32⟩
  | .hbm, ⟨35, _⟩ => ⟨S3200000x8, .f32⟩
  | .hbm, ⟨36, _⟩ => ⟨S_, .f32⟩
  | .hbm, ⟨37, _⟩ => ⟨S3200000, .f32⟩
  | _, _ => ⟨S3200000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S3200000x32_0_1 : S1x32.BroadcastsInDim S3200000x32 (![0, 1] : Fin 2 → Fin S3200000x32.rank)
  bcast_S_S3200000x32 : S_.BroadcastsInDim S3200000x32 (![] : Fin 0 → Fin S3200000x32.rank)
  bcast_S8_S1x8_1 : S8.BroadcastsInDim S1x8 (![1] : Fin 1 → Fin S1x8.rank)
  bcast_S1x8_S3200000x8_0_1 : S1x8.BroadcastsInDim S3200000x8 (![0, 1] : Fin 2 → Fin S3200000x8.rank)
  bcast_S_S3200000x8 : S_.BroadcastsInDim S3200000x8 (![] : Fin 0 → Fin S3200000x8.rank)
  reducesTo_S3200000x8_S3200000_d1 : S3200000x8.ReducesTo [1] S3200000
  h_S_ : 0 < S_.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x8_0_1 : S3200000x1.BroadcastsInDim S3200000x8 (![0, 1] : Fin 2 → Fin S3200000x8.rank)
  dot_S3200000x16_S16x32_S3200000x32_1_0_0_1_n_n_wf : DotDims.WF S3200000x16 S16x32 S3200000x32 [1] [0] [0] [1] [] []
  dot_S3200000x32_S32x8_S3200000x8_1_0_0_1_n_n_wf : DotDims.WF S3200000x32 S32x8 S3200000x8 [1] [0] [0] [1] [] []
  dot_S3200000x16_S16x8_S3200000x8_1_0_0_1_n_n_wf : DotDims.WF S3200000x16 S16x8 S3200000x8 [1] [0] [0] [1] [] []

variable [Facts₀]

def dot_S3200000x16_S16x32_S3200000x32_1_0_0_1_n_n : DotDims S3200000x16 S16x32 S3200000x32 where
  lhsContracting := [1]
  rhsContracting := [0]
  lhsNonContracting := [0]
  rhsNonContracting := [1]
  lhsBatch := []
  rhsBatch := []
  wf := dot_S3200000x16_S16x32_S3200000x32_1_0_0_1_n_n_wf
def dot_S3200000x32_S32x8_S3200000x8_1_0_0_1_n_n : DotDims S3200000x32 S32x8 S3200000x8 where
  lhsContracting := [1]
  rhsContracting := [0]
  lhsNonContracting := [0]
  rhsNonContracting := [1]
  lhsBatch := []
  rhsBatch := []
  wf := dot_S3200000x32_S32x8_S3200000x8_1_0_0_1_n_n_wf
def dot_S3200000x16_S16x8_S3200000x8_1_0_0_1_n_n : DotDims S3200000x16 S16x8 S3200000x8 where
  lhsContracting := [1]
  rhsContracting := [0]
  lhsNonContracting := [0]
  rhsNonContracting := [1]
  lhsBatch := []
  rhsBatch := []
  wf := dot_S3200000x16_S16x8_S3200000x8_1_0_0_1_n_n_wf

class Facts : Prop extends Facts₀ where

variable [Facts]
-- ==== Proof.GateSpec.lean ====
/-
  One edge's soft gate over eight experts, on the extended reals.

  An edge carries a feature row `x` of sixteen entries. A two-layer perceptron turns it into eight logits, a softmax
  (shifted by the row's largest logit) turns those into the gate `α`, and the fused score is the gate-weighted sum of
  the row's eight expert projections:

      h j   = max (∑ k, x k · W1 k j + b1 j) 0            (thirty-two hidden units)
      ℓ e   = ∑ j, h j · W2 j e + b2 e                    (eight logits)
      μ     = the largest ℓ e, folded from −∞
      u e   = exp (ℓ e − μ)
      α e   = u e / ∑ e', u e'
      s e   = ∑ k, x k · Wp k e
      fused = ∑ e, α e · s e

  Everything is a function of ONE row and of the weights as plain tables over `Fin`; no array shape and no tiling
  appears. A program that walks the edges block by block and one that treats all of them at once both compute, row by
  row, exactly these functions, so each is compared with this file and never with the other.

  The two float words that occur, −∞ and zero, are kept as words: the same word stands on both sides of every equation
  they appear in, so neither is ever evaluated. Two identities of the extended reals are recorded at the end, for a program
  that divides the logits by the constant one and takes the maximum of −∞ and the row maximum before subtracting it:
  both leave their argument unchanged, at the infinities too.
-/
import Idealize.ShloMosaic.PureOps.Ideal
import Idealize.ShloMosaic.PureOps.IdealRules

noncomputable section

namespace Cert.EdgeGate

open Idealize.ShloMosaic

/-- The f32 word of −∞: where the fold of a row's maximum starts. -/
abbrev negInfWord : EReal := Ideal.ofBits .f32 0xFF800000#32

/-- The f32 zero word: the floor of the hidden layer's ReLU. -/
abbrev zeroWord : EReal := Ideal.ofBits .f32 0x00000000#32

/-- Hidden unit `j` of the row: the affine image of the features, clamped below at zero. -/
def hiddenUnit (x : Fin 16 → EReal) (W1 : Fin 16 → Fin 32 → EReal) (b1 : Fin 32 → EReal) (j : Fin 32) : EReal :=
  max ((∑ k : Fin 16, x k * W1 k j) + b1 j) zeroWord

/-- Logit of expert `e`: the affine image of the hidden units. -/
def logit (x : Fin 16 → EReal) (W1 : Fin 16 → Fin 32 → EReal) (b1 : Fin 32 → EReal) (W2 : Fin 32 → Fin 8 → EReal)
    (b2 : Fin 8 → EReal) (e : Fin 8) : EReal :=
  (∑ j : Fin 32, hiddenUnit x W1 b1 j * W2 j e) + b2 e

/-- The row's largest logit, as the fold of `max` over the eight experts from −∞. -/
def rowMax (x : Fin 16 → EReal) (W1 : Fin 16 → Fin 32 → EReal) (b1 : Fin 32 → EReal) (W2 : Fin 32 → Fin 8 → EReal)
    (b2 : Fin 8 → EReal) : EReal :=
  (Finset.univ : Finset (Fin 8)).fold max negInfWord (fun e => logit x W1 b1 W2 b2 e)

/-- The unnormalised weight of expert `e`: the exponential of its logit's distance below the largest. -/
def unnorm (x : Fin 16 → EReal) (W1 : Fin 16 → Fin 32 → EReal) (b1 : Fin 32 → EReal) (W2 : Fin 32 → Fin 8 → EReal)
    (b2 : Fin 8 → EReal) (e : Fin 8) : EReal :=
  Ideal.exp (logit x W1 b1 W2 b2 e - rowMax x W1 b1 W2 b2)

/-- The gate: expert `e`'s share of the eight unnormalised weights. -/
def gate (x : Fin 16 → EReal) (W1 : Fin 16 → Fin 32 → EReal) (b1 : Fin 32 → EReal) (W2 : Fin 32 → Fin 8 → EReal)
    (b2 : Fin 8 → EReal) (e : Fin 8) : EReal :=
  Ideal.div (unnorm x W1 b1 W2 b2 e) (∑ e' : Fin 8, unnorm x W1 b1 W2 b2 e')

/-- Expert `e`'s projection of the row. -/
def score (x : Fin 16 → EReal) (Wp : Fin 16 → Fin 8 → EReal) (e : Fin 8) : EReal :=
  ∑ k : Fin 16, x k * Wp k e

/-- The fused score of the row: its projections weighted by the gate. -/
def fused (x : Fin 16 → EReal) (W1 : Fin 16 → Fin 32 → EReal) (b1 : Fin 32 → EReal) (W2 : Fin 32 → Fin 8 → EReal)
    (b2 : Fin 8 → EReal) (Wp : Fin 16 → Fin 8 → EReal) : EReal :=
  ∑ e : Fin 8, gate x W1 b1 W2 b2 e * score x Wp e

/-- The f32 word `0x3F800000` denotes one. -/
theorem oneWord : Ideal.ofBits .f32 0x3F800000#32 = 1 :=
  IdealRules.sign_bit.ideal_onePat .f32

/-- Dividing by the word of one changes nothing, on every extended real: the quotient by a nonzero real is the
    product with its reciprocal, and the reciprocal of one is one. -/
theorem div_oneWord (y : EReal) : Ideal.div y (Ideal.ofBits .f32 0x3F800000#32) = y := by
  rw [oneWord, ← EReal.coe_one, Ideal.div_coe one_ne_zero]
  simp

/-- The maximum of −∞ and `y` is `y`. -/
theorem max_negInfWord (y : EReal) : max negInfWord y = y := by
  show max (Ideal.ofBits .f32 0xFF800000#32) y = y
  simp [Ideal.ofBits, Ideal.ieee]

end Cert.EdgeGate

end
-- ==== Proof.GateArrays.lean ====
/-
  The gate over all 3,200,000 edges at once: the row functions of `Cert.EdgeGate` applied to every row of the feature
  array, with the weight arrays read as tables.

  An index `(r, e)` of the gate array holds edge `r`'s gate for expert `e`; index `r` of the fused array holds edge `r`'s
  fused score. Both are functions of row `r` of the features alone. These two whole-array functions are what each program's
  result arrays are proved to hold, so the two programs are compared through them.
-/
import proofs.«155465_g88742614270593_cont_sun_c4_34_7_alg».proof.Proof.GateSpec
import Idealize.ShloMosaic.Lib.ValueIdx

noncomputable section

namespace Cert.EdgeGate

open Idealize.ShloMosaic Idealize.ShloMosaic.ValueIdx

/-- Row `r` of a matrix, as a function of the column. -/
abbrev rowOf {a b : ℕ} (X : (⟨2, ![a, b]⟩ : Shape).Idx → EReal) (r : Fin a) : Fin b → EReal := fun k => X (ix2 r k)

/-- A matrix as a table of its two coordinates. -/
abbrev tableOf {a b : ℕ} (W : (⟨2, ![a, b]⟩ : Shape).Idx → EReal) : Fin a → Fin b → EReal := fun i j => W (ix2 i j)

/-- A vector as a function of its coordinate. -/
abbrev vecOf {b : ℕ} (v : (⟨1, ![b]⟩ : Shape).Idx → EReal) : Fin b → EReal := fun j => v (ix1 j)

variable (X : (⟨2, ![3200000, 16]⟩ : Shape).Idx → EReal) (W1 : (⟨2, ![16, 32]⟩ : Shape).Idx → EReal)
  (b1 : (⟨1, ![32]⟩ : Shape).Idx → EReal) (W2 : (⟨2, ![32, 8]⟩ : Shape).Idx → EReal) (b2 : (⟨1, ![8]⟩ : Shape).Idx → EReal)
  (Wp : (⟨2, ![16, 8]⟩ : Shape).Idx → EReal)

/-- Every edge's gates: at `(r, e)`, the gate of row `r` for expert `e`. -/
def gateAll : (⟨2, ![3200000, 8]⟩ : Shape).Idx → EReal :=
  fun i => gate (rowOf X (i 0)) (tableOf W1) (vecOf b1) (tableOf W2) (vecOf b2) (i 1)

/-- Every edge's fused score: at `r`, the fused score of row `r`. -/
def fusedAll : (⟨1, ![3200000]⟩ : Shape).Idx → EReal :=
  fun i => fused (rowOf X (i 0)) (tableOf W1) (vecOf b1) (tableOf W2) (vecOf b2) (tableOf Wp)

theorem gateAll_apply (r : Fin 3200000) (e : Fin 8) :
    gateAll X W1 b1 W2 b2 (ix2 r e) = gate (rowOf X r) (tableOf W1) (vecOf b1) (tableOf W2) (vecOf b2) e := rfl

theorem fusedAll_apply (r : Fin 3200000) :
    fusedAll X W1 b1 W2 b2 Wp (ix1 r) = fused (rowOf X r) (tableOf W1) (vecOf b1) (tableOf W2) (vecOf b2) (tableOf Wp) := rfl

end Cert.EdgeGate

end
-- ==== Proof.LibLastAxis.lean ====
/-
  A matrix reduced along its rows, and the column that result is kept in, read at an index.

  A row-wise normalisation (a softmax, a mean, a norm) of an `[a, b]` matrix takes a reduction over the last axis, which
  leaves one number per row, stores those numbers as an `[a, 1]` column ("keepdims"), and spreads the column back over the
  `b` entries of each row. This file reads each of those three steps at an index written by coordinates:

  * the column made from a vector, `[a] → [a, 1]`, at `(i, u)` is the vector at `i`;
  * the column spread over the rows' entries, `[a, 1] → [a, b]`, at `(p, c)` is the column at `(p, 0)`;
  * at the exact (extended real) values a sum along the last axis, at row `p`, is `∑ e : Fin b` of the matrix at `(p, e)`,
    and a maximum along it is the fold of `max` over `e : Fin b` from the value of the accumulator's word: both for the
    vector unit's `multi_reduction` and for a host `reduce`.

  The reduction facts rest on one index identity: the reduced index `p` with the coordinate `k` put back on the last axis
  is `(p, k)`.
-/
import Idealize.ShloMosaic.Lib.Pipeline.Value
import Idealize.ShloMosaic.Lib.ValueIdx
import Idealize.ShloMosaic.PureOps.Ideal.Laws

namespace Cert.LastAxis

open Idealize.ShloMosaic Idealize.ShloMosaic.ValueIdx

variable {α : Type}

/-! ## The kept column -/

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The last axis put back -/

/-- Row `p` with the coordinate `k` put back on the last axis is the index `(p, k)`. -/
theorem lift_last {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-! ## A sum and a maximum along the last axis, at the exact values -/

/-- The vector unit's sum along the last axis of an `[a, b]` matrix, at row `p`: the sum of that row's `b` entries. -/
theorem rowSum_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ e : Fin b, src (ix2 p e) := by
  refine (Ideal.multiReduction_add_single src acc h hφ hacc (ix1 p)).trans ?_
  show ∑ k : Fin b, src (h.lift (ix1 p) k) = ∑ e : Fin b, src (ix2 p e)
  exact Finset.sum_congr rfl fun k _ => congrArg src (lift_last h p k)

/-- The vector unit's maximum along the last axis, at row `p`: the fold of `max` over that row's `b` entries, from the
    value the accumulator's word denotes. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun e => src (ix2 p e)) := by
  refine (Ideal.multiReduction_maximumf_single src acc h hφ hacc (ix1 p)).trans ?_
  have hf : (src ∘ h.lift (ix1 p)) = fun k : Fin b => src (ix2 p k) := funext fun k => congrArg src (lift_last h p k)
  exact congrArg (fun f => Finset.fold max (Ideal.ofBits .f32 acc) f (Finset.univ : Finset (Fin b))) hf

/-- A host `reduce` with a maximum body along the last axis, at row `p`: the same fold, from the initial value. -/
theorem hostRowMax_apply {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (p : Fin a) :
    Host.reduce FloatOps.maximumf x init h' hu (ix1 p)
      = (Finset.univ : Finset (Fin b)).fold max (init (Shape.Idx.first hu)) (fun e => x (ix2 p e)) := by
  refine (Host.reduce_eq_fold_single FloatOps.maximumf x init h' h hu (ix1 p)).trans ?_
  have hf : (x ∘ h.lift (ix1 p)) = fun k : Fin b => x (ix2 p k) := funext fun k => congrArg x (lift_last h p k)
  exact congrArg (fun f => Finset.fold max (init (Shape.Idx.first hu)) f (Finset.univ : Finset (Fin b))) hf

end Cert.LastAxis
-- ==== Proof.KernelProducts.lean ====
/-
  The three matrix products of the gate's body, read at an index.

  A block holds 5120 edges. Its features (5120 × 16) are multiplied by the first layer's weights (16 × 32), the hidden
  layer (5120 × 32) by the second layer's (32 × 8), and the features again by the expert projection (16 × 8), each into a
  zero accumulator. At the exact values each product at `(p, c)` is the plain sum, over the contracted coordinate `k`, of
  the left factor at `(p, k)` times the right at `(k, c)`: no accumulator and no order of summation is left in it.
  For each product: which coordinate of each factor the dimension numbers read (four facts, one per factor and axis), then
  the sum re-indexed through the one contracted axis.
-/
import proofs.«155465_g88742614270593_cont_sun_c4_34_7_alg».proof.Proof.Gen.KernelIdeal
import Idealize.ShloMosaic.Lib.ValueIdx
import Idealize.ShloMosaic.PureOps.Ideal.Laws

noncomputable section

namespace Cert.KernelIdeal.Products

open Cert.KernelIdeal Cert.KernelIdeal.Gen Idealize.ShloMosaic Idealize.ShloMosaic.ValueIdx

/-! ### Features times the first layer's weights -/

theorem featW1_lhs_0 (i : S5120x32.Idx) (q : dot_S5120x16_S16x32_S5120x32_1_0_0_1_n_n.contr.Idx) :
    (dot_S5120x16_S16x32_S5120x32_1_0_0_1_n_n.lhsIdx i q 0).val = (i 0).val := by
  unfold DotDims.lhsIdx
  rw [dif_neg (show ¬(0 : Fin S5120x16.rank) ∈ dot_S5120x16_S16x32_S5120x32_1_0_0_1_n_n.lhsBatch by decide), dif_pos (show (0 : Fin S5120x16.rank) ∈ dot_S5120x16_S16x32_S5120x32_1_0_0_1_n_n.lhsNonContracting by decide)]
  rfl
theorem featW1_lhs_1 (i : S5120x32.Idx) (q : dot_S5120x16_S16x32_S5120x32_1_0_0_1_n_n.contr.Idx) :
    (dot_S5120x16_S16x32_S5120x32_1_0_0_1_n_n.lhsIdx i q 1).val = (q ⟨0, by decide⟩).val :=
  dot_S5120x16_S16x32_S5120x32_1_0_0_1_n_n.lhsIdx_val_of_single rfl i q
theorem featW1_rhs_0 (i : S5120x32.Idx) (q : dot_S5120x16_S16x32_S5120x32_1_0_0_1_n_n.contr.Idx) :
    (dot_S5120x16_S16x32_S5120x32_1_0_0_1_n_n.rhsIdx i q 0).val = (q ⟨0, by decide⟩).val :=
  dot_S5120x16_S16x32_S5120x32_1_0_0_1_n_n.rhsIdx_val_of_single rfl i q
theorem featW1_rhs_1 (i : S5120x32.Idx) (q : dot_S5120x16_S16x32_S5120x32_1_0_0_1_n_n.contr.Idx) :
    (dot_S5120x16_S16x32_S5120x32_1_0_0_1_n_n.rhsIdx i q 1).val = (i 1).val := by
  unfold DotDims.rhsIdx
  rw [dif_neg (show ¬(1 : Fin S16x32.rank) ∈ dot_S5120x16_S16x32_S5120x32_1_0_0_1_n_n.rhsBatch by decide), dif_pos (show (1 : Fin S16x32.rank) ∈ dot_S5120x16_S16x32_S5120x32_1_0_0_1_n_n.rhsNonContracting by decide)]
  rfl

/-- Into a zero accumulator the product at `(p, c)` is the sum over the 16 contracted coordinates of row `p` of the left
    factor times column `c` of the right. -/
theorem featW1_apply (l : FVec Ideal S5120x16 .f32) (r : FVec Ideal S16x32 .f32) (p : Fin 5120) (c : Fin 32) :
    matmul dot_S5120x16_S16x32_S5120x32_1_0_0_1_n_n none l r (constant (F := Ideal) S5120x32 .f32 0x00000000#32) (ix2 p c)
      = ∑ k : Fin 16, l (ix2 p k) * r (ix2 k c) := by
  simp only [matmul]
  rw [Ideal.matmul_constant_zero_apply, ← Equiv.sum_comp (ValueIdx.contrEquiv1 dot_S5120x16_S16x32_S5120x32_1_0_0_1_n_n 16 rfl rfl).symm]
  refine Finset.sum_congr rfl fun k _ => ?_
  have hk := ValueIdx.contrEquiv1_symm_val dot_S5120x16_S16x32_S5120x32_1_0_0_1_n_n 16 rfl rfl k
  have el : dot_S5120x16_S16x32_S5120x32_1_0_0_1_n_n.lhsIdx (ix2 p c) ((ValueIdx.contrEquiv1 dot_S5120x16_S16x32_S5120x32_1_0_0_1_n_n 16 rfl rfl).symm k) = ix2 p k := funext fun a => Fin.ext (by
    match a with
    | ⟨0, _⟩ => exact featW1_lhs_0 _ _
    | ⟨1, _⟩ => exact (featW1_lhs_1 _ _).trans hk)
  have er : dot_S5120x16_S16x32_S5120x32_1_0_0_1_n_n.rhsIdx (ix2 p c) ((ValueIdx.contrEquiv1 dot_S5120x16_S16x32_S5120x32_1_0_0_1_n_n 16 rfl rfl).symm k) = ix2 k c := funext fun a => Fin.ext (by
    match a with
    | ⟨0, _⟩ => exact (featW1_rhs_0 _ _).trans hk
    | ⟨1, _⟩ => exact featW1_rhs_1 _ _)
  rw [el, er]

/-! ### Hidden layer times the second layer's weights -/

theorem hidW2_lhs_0 (i : S5120x8.Idx) (q : dot_S5120x32_S32x8_S5120x8_1_0_0_1_n_n.contr.Idx) :
    (dot_S5120x32_S32x8_S5120x8_1_0_0_1_n_n.lhsIdx i q 0).val = (i 0).val := by
  unfold DotDims.lhsIdx
  rw [dif_neg (show ¬(0 : Fin S5120x32.rank) ∈ dot_S5120x32_S32x8_S5120x8_1_0_0_1_n_n.lhsBatch by decide), dif_pos (show (0 : Fin S5120x32.rank) ∈ dot_S5120x32_S32x8_S5120x8_1_0_0_1_n_n.lhsNonContracting by decide)]
  rfl
theorem hidW2_lhs_1 (i : S5120x8.Idx) (q : dot_S5120x32_S32x8_S5120x8_1_0_0_1_n_n.contr.Idx) :
    (dot_S5120x32_S32x8_S5120x8_1_0_0_1_n_n.lhsIdx i q 1).val = (q ⟨0, by decide⟩).val :=
  dot_S5120x32_S32x8_S5120x8_1_0_0_1_n_n.lhsIdx_val_of_single rfl i q
theorem hidW2_rhs_0 (i : S5120x8.Idx) (q : dot_S5120x32_S32x8_S5120x8_1_0_0_1_n_n.contr.Idx) :
    (dot_S5120x32_S32x8_S5120x8_1_0_0_1_n_n.rhsIdx i q 0).val = (q ⟨0, by decide⟩).val :=
  dot_S5120x32_S32x8_S5120x8_1_0_0_1_n_n.rhsIdx_val_of_single rfl i q
theorem hidW2_rhs_1 (i : S5120x8.Idx) (q : dot_S5120x32_S32x8_S5120x8_1_0_0_1_n_n.contr.Idx) :
    (dot_S5120x32_S32x8_S5120x8_1_0_0_1_n_n.rhsIdx i q 1).val = (i 1).val := by
  unfold DotDims.rhsIdx
  rw [dif_neg (show ¬(1 : Fin S32x8.rank) ∈ dot_S5120x32_S32x8_S5120x8_1_0_0_1_n_n.rhsBatch by decide), dif_pos (show (1 : Fin S32x8.rank) ∈ dot_S5120x32_S32x8_S5120x8_1_0_0_1_n_n.rhsNonContracting by decide)]
  rfl

/-- Into a zero accumulator the product at `(p, c)` is the sum over the 32 contracted coordinates of row `p` of the left
    factor times column `c` of the right. -/
theorem hidW2_apply (l : FVec Ideal S5120x32 .f32) (r : FVec Ideal S32x8 .f32) (p : Fin 5120) (c : Fin 8) :
    matmul dot_S5120x32_S32x8_S5120x8_1_0_0_1_n_n none l r (constant (F := Ideal) S5120x8 .f32 0x00000000#32) (ix2 p c)
      = ∑ k : Fin 32, l (ix2 p k) * r (ix2 k c) := by
  simp only [matmul]
  rw [Ideal.matmul_constant_zero_apply, ← Equiv.sum_comp (ValueIdx.contrEquiv1 dot_S5120x32_S32x8_S5120x8_1_0_0_1_n_n 32 rfl rfl).symm]
  refine Finset.sum_congr rfl fun k _ => ?_
  have hk := ValueIdx.contrEquiv1_symm_val dot_S5120x32_S32x8_S5120x8_1_0_0_1_n_n 32 rfl rfl k
  have el : dot_S5120x32_S32x8_S5120x8_1_0_0_1_n_n.lhsIdx (ix2 p c) ((ValueIdx.contrEquiv1 dot_S5120x32_S32x8_S5120x8_1_0_0_1_n_n 32 rfl rfl).symm k) = ix2 p k := funext fun a => Fin.ext (by
    match a with
    | ⟨0, _⟩ => exact hidW2_lhs_0 _ _
    | ⟨1, _⟩ => exact (hidW2_lhs_1 _ _).trans hk)
  have er : dot_S5120x32_S32x8_S5120x8_1_0_0_1_n_n.rhsIdx (ix2 p c) ((ValueIdx.contrEquiv1 dot_S5120x32_S32x8_S5120x8_1_0_0_1_n_n 32 rfl rfl).symm k) = ix2 k c := funext fun a => Fin.ext (by
    match a with
    | ⟨0, _⟩ => exact (hidW2_rhs_0 _ _).trans hk
    | ⟨1, _⟩ => exact hidW2_rhs_1 _ _)
  rw [el, er]

/-! ### Features times the expert projection -/

theorem featWp_lhs_0 (i : S5120x8.Idx) (q : dot_S5120x16_S16x8_S5120x8_1_0_0_1_n_n.contr.Idx) :
    (dot_S5120x16_S16x8_S5120x8_1_0_0_1_n_n.lhsIdx i q 0).val = (i 0).val := by
  unfold DotDims.lhsIdx
  rw [dif_neg (show ¬(0 : Fin S5120x16.rank) ∈ dot_S5120x16_S16x8_S5120x8_1_0_0_1_n_n.lhsBatch by decide), dif_pos (show (0 : Fin S5120x16.rank) ∈ dot_S5120x16_S16x8_S5120x8_1_0_0_1_n_n.lhsNonContracting by decide)]
  rfl
theorem featWp_lhs_1 (i : S5120x8.Idx) (q : dot_S5120x16_S16x8_S5120x8_1_0_0_1_n_n.contr.Idx) :
    (dot_S5120x16_S16x8_S5120x8_1_0_0_1_n_n.lhsIdx i q 1).val = (q ⟨0, by decide⟩).val :=
  dot_S5120x16_S16x8_S5120x8_1_0_0_1_n_n.lhsIdx_val_of_single rfl i q
theorem featWp_rhs_0 (i : S5120x8.Idx) (q : dot_S5120x16_S16x8_S5120x8_1_0_0_1_n_n.contr.Idx) :
    (dot_S5120x16_S16x8_S5120x8_1_0_0_1_n_n.rhsIdx i q 0).val = (q ⟨0, by decide⟩).val :=
  dot_S5120x16_S16x8_S5120x8_1_0_0_1_n_n.rhsIdx_val_of_single rfl i q
theorem featWp_rhs_1 (i : S5120x8.Idx) (q : dot_S5120x16_S16x8_S5120x8_1_0_0_1_n_n.contr.Idx) :
    (dot_S5120x16_S16x8_S5120x8_1_0_0_1_n_n.rhsIdx i q 1).val = (i 1).val := by
  unfold DotDims.rhsIdx
  rw [dif_neg (show ¬(1 : Fin S16x8.rank) ∈ dot_S5120x16_S16x8_S5120x8_1_0_0_1_n_n.rhsBatch by decide), dif_pos (show (1 : Fin S16x8.rank) ∈ dot_S5120x16_S16x8_S5120x8_1_0_0_1_n_n.rhsNonContracting by decide)]
  rfl

/-- Into a zero accumulator the product at `(p, c)` is the sum over the 16 contracted coordinates of row `p` of the left
    factor times column `c` of the right. -/
theorem featWp_apply (l : FVec Ideal S5120x16 .f32) (r : FVec Ideal S16x8 .f32) (p : Fin 5120) (c : Fin 8) :
    matmul dot_S5120x16_S16x8_S5120x8_1_0_0_1_n_n none l r (constant (F := Ideal) S5120x8 .f32 0x00000000#32) (ix2 p c)
      = ∑ k : Fin 16, l (ix2 p k) * r (ix2 k c) := by
  simp only [matmul]
  rw [Ideal.matmul_constant_zero_apply, ← Equiv.sum_comp (ValueIdx.contrEquiv1 dot_S5120x16_S16x8_S5120x8_1_0_0_1_n_n 16 rfl rfl).symm]
  refine Finset.sum_congr rfl fun k _ => ?_
  have hk := ValueIdx.contrEquiv1_symm_val dot_S5120x16_S16x8_S5120x8_1_0_0_1_n_n 16 rfl rfl k
  have el : dot_S5120x16_S16x8_S5120x8_1_0_0_1_n_n.lhsIdx (ix2 p c) ((ValueIdx.contrEquiv1 dot_S5120x16_S16x8_S5120x8_1_0_0_1_n_n 16 rfl rfl).symm k) = ix2 p k := funext fun a => Fin.ext (by
    match a with
    | ⟨0, _⟩ => exact featWp_lhs_0 _ _
    | ⟨1, _⟩ => exact (featWp_lhs_1 _ _).trans hk)
  have er : dot_S5120x16_S16x8_S5120x8_1_0_0_1_n_n.rhsIdx (ix2 p c) ((ValueIdx.contrEquiv1 dot_S5120x16_S16x8_S5120x8_1_0_0_1_n_n 16 rfl rfl).symm k) = ix2 k c := funext fun a => Fin.ext (by
    match a with
    | ⟨0, _⟩ => exact (featWp_rhs_0 _ _).trans hk
    | ⟨1, _⟩ => exact featWp_rhs_1 _ _)
  rw [el, er]

end Cert.KernelIdeal.Products

end
-- ==== Proof.KernelRow.lean ====
/-
  One block of the gate's body, read row by row.

  The body takes a block of 5120 feature rows and the weights, and stores two results: the block of gates (5120 × 8) and
  the block of fused scores (5120). Here the body's arithmetic is cut at its five natural stages — the hidden layer, the
  logits, each row's largest logit, the unnormalised weights, the gate — and each stage is read at an index in terms of the
  stage before it. Nothing in a row's result depends on another row: at block-local row `p` every stage is the
  corresponding function of the specification (`Cert.EdgeGate`) applied to row `p` of the features and to the weights read
  as tables. The two bias rows arrive as `1 × n` matrices and are read at their one row.

  The row maximum and the two row sums are reductions along the last axis kept as a column and spread back over the row
  (`Cert.LastAxis`); the three products are plain sums (`Cert.KernelIdeal.Products`).
-/
import proofs.«155465_g88742614270593_cont_sun_c4_34_7_alg».proof.Proof.Gen.KernelIdeal.Skeleton
import proofs.«155465_g88742614270593_cont_sun_c4_34_7_alg».proof.Proof.GateArrays
import proofs.«155465_g88742614270593_cont_sun_c4_34_7_alg».proof.Proof.LibLastAxis
import proofs.«155465_g88742614270593_cont_sun_c4_34_7_alg».proof.Proof.KernelProducts
import Idealize.ShloMosaic.Lib.ValueLayout
import Idealize.ShloMosaic.Lib.ValueIdx
import Idealize.ShloMosaic.PureOps.Ideal.Laws

noncomputable section

namespace Cert.KernelIdeal.Row

open Cert.KernelIdeal Cert.KernelIdeal.Gen Cert.KernelIdeal.Products Idealize.ShloMosaic Idealize.ShloMosaic.ValueIdx
open Cert.EdgeGate Cert.LastAxis

/-! ## A block's operands read as the specification's arguments -/

/-- A bias stored as a one-row matrix, as a function of the column. -/
abbrev biasRow {b : ℕ} (v : FVec Ideal ⟨2, ![1, b]⟩ .f32) : Fin b → EReal := fun j => v (ix2 (0 : Fin 1) j)

variable (x0 : FVec Ideal S5120x16 .f32) (x1 : FVec Ideal S16x32 .f32) (x2 : FVec Ideal S1x32 .f32)
  (x3 : FVec Ideal S32x8 .f32) (x4 : FVec Ideal S1x8 .f32) (x5 : FVec Ideal S16x8 .f32)

/-! ## The body's stages, as the body computes them -/

/-- The hidden layer of the block: features times the first weights, plus the bias row spread over the rows, clamped at zero. -/
def hidBlk : FVec Ideal S5120x32 .f32 :=
  maximumf (addf (matmul dot_S5120x16_S16x32_S5120x32_1_0_0_1_n_n none x0 x1 (constant S5120x32 .f32 0x00000000#32))
      (broadcastTo S5120x32 (shapeCast S1x32 x2 shapeCasts_S1x32_S1x32) broadcasts_S1x32_S5120x32))
    (broadcast S5120x32 (Scalar.ofBits .f32 0x00000000#32))

/-- The logits of the block: the hidden layer times the second weights, plus the second bias row. -/
def logitBlk : FVec Ideal S5120x8 .f32 :=
  addf (matmul dot_S5120x32_S32x8_S5120x8_1_0_0_1_n_n none (hidBlk x0 x1 x2) x3 (constant S5120x8 .f32 0x00000000#32))
    (broadcastTo S5120x8 (shapeCast S1x8 x4 shapeCasts_S1x8_S1x8) broadcasts_S1x8_S5120x8)

/-- Each row's largest logit. -/
def maxBlk : FVec Ideal S5120 .f32 :=
  multiReduction .maximumf [1] S5120 (logitBlk x0 x1 x2 x3 x4) 0xFF800000#32 reduces_S5120x8_S5120 (.inl rfl) rfl

/-- The unnormalised weights: the exponential of each logit's distance below its row's largest. -/
def unnormBlk : FVec Ideal S5120x8 .f32 :=
  exp (subf (logitBlk x0 x1 x2 x3 x4)
    (broadcastTo S5120x8 (shapeCast S5120x1 (maxBlk x0 x1 x2 x3 x4) shapeCasts_S5120_S5120x1) broadcasts_S5120x1_S5120x8))

/-- The gates: each unnormalised weight over its row's sum. -/
def gateBlk : FVec Ideal S5120x8 .f32 :=
  divf (unnormBlk x0 x1 x2 x3 x4)
    (broadcastTo S5120x8 (shapeCast S5120x1
      (multiReduction .add [1] S5120 (unnormBlk x0 x1 x2 x3 x4) 0x00000000#32 reduces_S5120x8_S5120 (.inl rfl) rfl)
      shapeCasts_S5120_S5120x1) broadcasts_S5120x1_S5120x8)

/-- The fused scores: each row's projections weighted by its gates and summed. -/
def fusedBlk : FVec Ideal S5120 .f32 :=
  multiReduction .add [1] S5120
    (mulf (gateBlk x0 x1 x2 x3 x4) (matmul dot_S5120x16_S16x8_S5120x8_1_0_0_1_n_n none x0 x5 (constant S5120x8 .f32 0x00000000#32)))
    0x00000000#32 reduces_S5120x8_S5120 (.inl rfl) rfl

/-- The first stored value is the block of gates, -/
theorem pay1_eq : k0_pay1 (F := Ideal) x0 x1 x2 x3 x4 = gateBlk x0 x1 x2 x3 x4 := rfl

/-- and the second the block of fused scores. -/
theorem pay2_eq : k0_pay2 (F := Ideal) x0 x1 x2 x3 x4 x5 = fusedBlk x0 x1 x2 x3 x4 x5 := rfl

/-! ## Each stage at an index -/

/-- A bias row spread over the block's rows reads, at `(p, c)`, the bias at `c`. -/
theorem biasSpread_apply {b : ℕ} (v : FVec Ideal ⟨2, ![1, b]⟩ .f32) (hc : (⟨2, ![1, b]⟩ : Shape).ShapeCasts ⟨2, ![1, b]⟩)
    (hb : (⟨2, ![1, b]⟩ : Shape).Broadcasts ⟨2, ![5120, b]⟩) (p : Fin 5120) (c : Fin b) :
    broadcastTo ⟨2, ![5120, b]⟩ (shapeCast ⟨2, ![1, b]⟩ v hc) hb (ix2 p c) = v (ix2 (0 : Fin 1) c) := by
  rw [broadcastTo_1b_ab_apply, shapeCast_self]

/-- A per-row number kept as a column and spread over the row's eight entries reads, at `(p, e)`, the number of row `p`. -/
theorem columnSpread_apply (v : FVec Ideal S5120 .f32) (p : Fin 5120) (e : Fin 8) :
    broadcastTo S5120x8 (shapeCast S5120x1 v shapeCasts_S5120_S5120x1) broadcasts_S5120x1_S5120x8 (ix2 p e) = v (ix1 p) := by
  rw [broadcastTo_a1_ab_apply, shapeCast_a_a1_apply]

theorem hidBlk_apply (p : Fin 5120) (j : Fin 32) :
    hidBlk x0 x1 x2 (ix2 p j) = hiddenUnit (rowOf x0 p) (tableOf x1) (biasRow x2) j := by
  have h1 := featW1_apply x0 x1 p j
  have h2 := biasSpread_apply x2 shapeCasts_S1x32_S1x32 broadcasts_S1x32_S5120x32 p j
  unfold hidBlk hiddenUnit
  rw [maximumf_apply, addf_apply, h1, h2]
  rfl

theorem logitBlk_apply (p : Fin 5120) (e : Fin 8) :
    logitBlk x0 x1 x2 x3 x4 (ix2 p e) = logit (rowOf x0 p) (tableOf x1) (biasRow x2) (tableOf x3) (biasRow x4) e := by
  have h1 := hidW2_apply (hidBlk x0 x1 x2) x3 p e
  have h2 := biasSpread_apply x4 shapeCasts_S1x8_S1x8 broadcasts_S1x8_S5120x8 p e
  unfold logitBlk logit
  rw [addf_apply, h1, h2]
  simp only [hidBlk_apply]

theorem maxBlk_apply (p : Fin 5120) :
    maxBlk x0 x1 x2 x3 x4 (ix1 p) = rowMax (rowOf x0 p) (tableOf x1) (biasRow x2) (tableOf x3) (biasRow x4) := by
  unfold maxBlk rowMax
  refine (rowMax_apply (logitBlk x0 x1 x2 x3 x4) 0xFF800000#32 reduces_S5120x8_S5120 (.inl rfl) rfl p).trans ?_
  simp only [logitBlk_apply]

theorem unnormBlk_apply (p : Fin 5120) (e : Fin 8) :
    unnormBlk x0 x1 x2 x3 x4 (ix2 p e) = unnorm (rowOf x0 p) (tableOf x1) (biasRow x2) (tableOf x3) (biasRow x4) e := by
  have h2 := columnSpread_apply (maxBlk x0 x1 x2 x3 x4) p e
  unfold unnormBlk unnorm
  show Ideal.exp (logitBlk x0 x1 x2 x3 x4 (ix2 p e) - _) = _
  rw [h2, logitBlk_apply, maxBlk_apply]

theorem gateBlk_apply (p : Fin 5120) (e : Fin 8) :
    gateBlk x0 x1 x2 x3 x4 (ix2 p e) = gate (rowOf x0 p) (tableOf x1) (biasRow x2) (tableOf x3) (biasRow x4) e := by
  have hs : multiReduction .add [1] S5120 (unnormBlk x0 x1 x2 x3 x4) 0x00000000#32 reduces_S5120x8_S5120 (.inl rfl) rfl (ix1 p)
      = ∑ e' : Fin 8, unnorm (rowOf x0 p) (tableOf x1) (biasRow x2) (tableOf x3) (biasRow x4) e' := by
    refine (rowSum_apply (unnormBlk x0 x1 x2 x3 x4) 0x00000000#32 reduces_S5120x8_S5120 (.inl rfl) rfl p).trans ?_
    simp only [unnormBlk_apply]
  have h2 := columnSpread_apply (multiReduction .add [1] S5120 (unnormBlk x0 x1 x2 x3 x4) 0x00000000#32 reduces_S5120x8_S5120 (.inl rfl) rfl) p e
  unfold gateBlk gate
  rw [divf_apply, h2, hs, unnormBlk_apply]

theorem fusedBlk_apply (p : Fin 5120) :
    fusedBlk x0 x1 x2 x3 x4 x5 (ix1 p)
      = fused (rowOf x0 p) (tableOf x1) (biasRow x2) (tableOf x3) (biasRow x4) (tableOf x5) := by
  unfold fusedBlk fused
  refine (rowSum_apply _ 0x00000000#32 reduces_S5120x8_S5120 (.inl rfl) rfl p).trans ?_
  refine Finset.sum_congr rfl fun e _ => ?_
  rw [mulf_apply, gateBlk_apply, featWp_apply]
  rfl

/-! ## The two stored values at an index -/

/-- The stored gates at block-local `(p, e)`: the specification's gate of row `p`. -/
theorem pay1_apply (p : Fin 5120) (e : Fin 8) :
    k0_pay1 (F := Ideal) x0 x1 x2 x3 x4 (ix2 p e) = gate (rowOf x0 p) (tableOf x1) (biasRow x2) (tableOf x3) (biasRow x4) e :=
  (congrFun (pay1_eq x0 x1 x2 x3 x4) (ix2 p e)).trans (gateBlk_apply x0 x1 x2 x3 x4 p e)

/-- The stored fused score at block-local row `p`: the specification's fused score of that row. -/
theorem pay2_apply (p : Fin 5120) :
    k0_pay2 (F := Ideal) x0 x1 x2 x3 x4 x5 (ix1 p)
      = fused (rowOf x0 p) (tableOf x1) (biasRow x2) (tableOf x3) (biasRow x4) (tableOf x5) :=
  (congrFun (pay2_eq x0 x1 x2 x3 x4 x5) (ix1 p)).trans (fusedBlk_apply x0 x1 x2 x3 x4 x5 p)

/-! ## A block's stored values against the whole-array functions

  When the block's feature row `p` is row `r` of the feature array, its weight operands are the weight arrays, and its two
  one-row bias operands hold the bias vectors, what the block stores at `p` is what the whole-array functions hold at `r`. -/

theorem point_gate (X : FVec Ideal S3200000x16 .f32) (W1 : FVec Ideal S16x32 .f32) (B1 : FVec Ideal S32 .f32)
    (W2 : FVec Ideal S32x8 .f32) (B2 : FVec Ideal S8 .f32) (p : Fin 5120) (e : Fin 8) (r : Fin 3200000)
    (h0 : ∀ k : Fin 16, x0 (ix2 p k) = X (ix2 r k)) (h1 : x1 = W1) (h2 : ∀ j : Fin 32, x2 (ix2 (0 : Fin 1) j) = B1 (ix1 j))
    (h3 : x3 = W2) (h4 : ∀ e' : Fin 8, x4 (ix2 (0 : Fin 1) e') = B2 (ix1 e')) :
    k0_pay1 (F := Ideal) x0 x1 x2 x3 x4 (ix2 p e) = gateAll X W1 B1 W2 B2 (ix2 r e) := by
  have e0 : rowOf x0 p = rowOf X r := funext h0
  have e2 : biasRow x2 = vecOf B1 := funext h2
  have e4 : biasRow x4 = vecOf B2 := funext h4
  rw [pay1_apply, gateAll_apply, e0, e2, e4, h1, h3]

theorem point_fused (X : FVec Ideal S3200000x16 .f32) (W1 : FVec Ideal S16x32 .f32) (B1 : FVec Ideal S32 .f32)
    (W2 : FVec Ideal S32x8 .f32) (B2 : FVec Ideal S8 .f32) (Wp : FVec Ideal S16x8 .f32) (p : Fin 5120) (r : Fin 3200000)
    (h0 : ∀ k : Fin 16, x0 (ix2 p k) = X (ix2 r k)) (h1 : x1 = W1) (h2 : ∀ j : Fin 32, x2 (ix2 (0 : Fin 1) j) = B1 (ix1 j))
    (h3 : x3 = W2) (h4 : ∀ e' : Fin 8, x4 (ix2 (0 : Fin 1) e') = B2 (ix1 e')) (h5 : x5 = Wp) :
    k0_pay2 (F := Ideal) x0 x1 x2 x3 x4 x5 (ix1 p) = fusedAll X W1 B1 W2 B2 Wp (ix1 r) := by
  have e0 : rowOf x0 p = rowOf X r := funext h0
  have e2 : biasRow x2 = vecOf B1 := funext h2
  have e4 : biasRow x4 = vecOf B2 := funext h4
  rw [pay2_apply, fusedAll_apply, e0, e2, e4, h1, h3, h5]

end Cert.KernelIdeal.Row

end
-- ==== Proof.KernelBlocks.lean ====
/-
  From blocks to whole arrays: what the two result arrays hold after the gate kernel's run.

  The grid has 625 points. Point `t` is given rows `5120·t … 5120·t + 5119` of the feature array, the four weight arrays
  whole (their block index is zero at every point), and the two biases as one-row matrices that the host made from the
  bias vectors by a reshape before the launch. It writes back block `t` of the gate array (the same rows, all eight
  columns) and block `t` of the fused array (the same rows).

  Because a row's gate and fused score depend on that row alone (`Cert.KernelIdeal.Row`), what point `t` writes back is
  block `t` of the whole-array functions `gateAll` and `fusedAll` of the argument arrays. The 625 blocks tile both result
  arrays — row `r` lies in block `r / 5120` — so each array ends holding its whole-array function.
-/
import proofs.«155465_g88742614270593_cont_sun_c4_34_7_alg».proof.Proof.Gen.KernelIdeal.Value
import proofs.«155465_g88742614270593_cont_sun_c4_34_7_alg».proof.Proof.KernelRow
import proofs.«155465_g88742614270593_cont_sun_c4_34_7_alg».proof.Proof.GateArrays
import Idealize.ShloMosaic.Lib.Pipeline.Value
import Idealize.ShloMosaic.Lib.ValueLayout
import Idealize.ShloMosaic.Lib.StableHlo.Run
import Idealize.ShloMosaic.Lib.Tactic

noncomputable section

namespace Cert.KernelIdeal.Blocks

open Cert.KernelIdeal Cert.KernelIdeal.Gen Cert.KernelIdeal.Value Cert.KernelIdeal.Row
open Idealize.ShloMosaic Idealize.ShloMosaic.TcCoe Idealize.SL.Sem Idealize.ShloMosaic.ValueIdx Cert.EdgeGate
open Idealize.ShloMosaic.Pipeline (Dat)

variable (m : (ℓ : Loc nD τ sig) → Buf (Elt Ideal) ℓ) (ρ : Dev nD → PrngReg)

/-! ## The argument arrays, by their literal types -/

abbrev feats (c : Dev nD) : FVec Ideal S3200000x16 .f32 := m ((c : Thread nD τ).loc main_arg0)
abbrev w1 (c : Dev nD) : FVec Ideal S16x32 .f32 := m ((c : Thread nD τ).loc main_arg1)
abbrev b1 (c : Dev nD) : FVec Ideal S32 .f32 := m ((c : Thread nD τ).loc main_arg2)
abbrev w2 (c : Dev nD) : FVec Ideal S32x8 .f32 := m ((c : Thread nD τ).loc main_arg3)
abbrev b2 (c : Dev nD) : FVec Ideal S8 .f32 := m ((c : Thread nD τ).loc main_arg4)
abbrev wp (c : Dev nD) : FVec Ideal S16x8 .f32 := m ((c : Thread nD τ).loc main_arg5)

theorem hz2 : (![0, 0] : Fin 2 → Nat) = fun _ => 0 := funext fun a => by fin_cases a <;> rfl
theorem hz1 : (![0] : Fin 1 → Nat) = fun _ => 0 := funext fun a => by fin_cases a <;> rfl

/-- The number of grid points, as a number. -/
theorem lt_points (t : Fin cfg0.N) : t.val < 625 :=
  Nat.lt_of_lt_of_eq t.isLt N_0

/-! ## The index maps, decided over the 625 points

  The features and both results move with the point along the rows; everything else stays at block zero. -/

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 1) = t.val :=
  (by decide +kernel : ∀ t : Fin grid0.N, _)

/-! ## The host's two reshapes: a bias vector as a one-row matrix -/

/-- The first bias as the region finds it, at `(0, j)`, is the bias vector at `j`. -/
theorem b1Row_apply (c : Dev nD) (j : Fin 32) :
    (V m c main_call0_v0 : FVec Ideal S1x32 .f32) (ix2 (0 : Fin 1) j) = b1 m c (ix1 j) := by
  have e : (V m c main_call0_v0 : S1x32.Idx → EReal) = shapeCast S1x32 (b1 m c) shapeCasts_S32_S1x32 := by
    dsimp only [Gen.V, Gen.hostOps0]; after_results; rfl
  rw [e, shapeCast_a_1a_apply]

/-- The second bias as the region finds it, at `(0, e)`, is the bias vector at `e`. -/
theorem b2Row_apply (c : Dev nD) (e : Fin 8) :
    (V m c main_call0_v1 : FVec Ideal S1x8 .f32) (ix2 (0 : Fin 1) e) = b2 m c (ix1 e) := by
  have h : (V m c main_call0_v1 : S1x8.Idx → EReal) = shapeCast S1x8 (b2 m c) shapeCasts_S8_S1x8 := by
    dsimp only [Gen.V, Gen.hostOps0]; after_results; rfl
  rw [h, shapeCast_a_1a_apply]

/-! ## Each input window's block at a point -/

/-- The feature block of point `t` at `(p, k)` is the feature array at `(5120·t + p, k)`. -/
theorem featBlock_apply (c : Dev nD) (t : Fin cfg0.N) (p : Fin 5120) (k : Fin 16) (r : Fin 3200000)
    (hr : r.val = 5120 * t.val + p.val) :
    (iblk m c 0 t : FVec Ideal S5120x16 .f32) (ix2 p k) = feats m c (ix2 r k) := by
  obtain ⟨i0, i1, -⟩ := idx_facts t
  show V m c main_arg0 (((cfg0.win 0).blk t).view.emb (ix2 p k)) = feats m c (ix2 r k)
  have h : ((cfg0.win 0).blk t).view.emb (ix2 p k) = ix2 r k := by
    funext a; apply Fin.ext
    match a with
    | ⟨0, _⟩ => show win0_0.index t (0 : Fin 2) * 5120 + 1 * p.val = r.val; omega
    | ⟨1, _⟩ => show win0_0.index t (1 : Fin 2) * 16 + 1 * k.val = k.val; omega
  rw [h]
  exact congrFun (V_main_arg0 m c) (ix2 r k)

/-- The first weights' block is the whole array at every point. -/
theorem w1Block_eq (c : Dev nD) (t : Fin cfg0.N) : (iblk m c 1 t : FVec Ideal S16x32 .f32) = w1 m c := by
  obtain ⟨-, -, i0, i1, -⟩ := idx_facts t
  funext y
  show V m c main_arg1 (((cfg0.win 1).blk t).view.emb y) = w1 m c y
  have h : ((cfg0.win 1).blk t).view.emb y = y := by
    funext a; apply Fin.ext
    match a with
    | ⟨0, _⟩ => show win0_1.index t (0 : Fin 2) * 16 + 1 * (y 0).val = (y 0).val; omega
    | ⟨1, _⟩ => show win0_1.index t (1 : Fin 2) * 32 + 1 * (y 1).val = (y 1).val; omega
  rw [h]
  exact congrFun (V_main_arg1 m c) y

/-- The first bias's block, at `(0, j)`, is the bias vector at `j`. -/
theorem b1Block_apply (c : Dev nD) (t : Fin cfg0.N) (j : Fin 32) :
    (iblk m c 2 t : FVec Ideal S1x32 .f32) (ix2 (0 : Fin 1) j) = b1 m c (ix1 j) := by
  obtain ⟨-, -, -, -, i0, i1, -⟩ := idx_facts t
  show V m c main_call0_v0 (((cfg0.win 2).blk t).view.emb (ix2 (0 : Fin 1) j)) = b1 m c (ix1 j)
  have h : ((cfg0.win 2).blk t).view.emb (ix2 (0 : Fin 1) j) = ix2 (0 : Fin 1) j := by
    funext a; apply Fin.ext
    match a with
    | ⟨0, _⟩ => show win0_2.index t (0 : Fin 2) * 1 + 1 * 0 = 0; omega
    | ⟨1, _⟩ => show win0_2.index t (1 : Fin 2) * 32 + 1 * j.val = j.val; omega
  rw [h]
  exact b1Row_apply m c j

/-- The second weights' block is the whole array at every point. -/
theorem w2Block_eq (c : Dev nD) (t : Fin cfg0.N) : (iblk m c 3 t : FVec Ideal S32x8 .f32) = w2 m c := by
  obtain ⟨-, -, -, -, -, -, i0, i1, -⟩ := idx_facts t
  funext y
  show V m c main_arg3 (((cfg0.win 3).blk t).view.emb y) = w2 m c y
  have h : ((cfg0.win 3).blk t).view.emb y = y := by
    funext a; apply Fin.ext
    match a with
    | ⟨0, _⟩ => show win0_3.index t (0 : Fin 2) * 32 + 1 * (y 0).val = (y 0).val; omega
    | ⟨1, _⟩ => show win0_3.index t (1 : Fin 2) * 8 + 1 * (y 1).val = (y 1).val; omega
  rw [h]
  exact congrFun (V_main_arg3 m c) y

/-- The second bias's block, at `(0, e)`, is the bias vector at `e`. -/
theorem b2Block_apply (c : Dev nD) (t : Fin cfg0.N) (e : Fin 8) :
    (iblk m c 4 t : FVec Ideal S1x8 .f32) (ix2 (0 : Fin 1) e) = b2 m c (ix1 e) := by
  obtain ⟨-, -, -, -, -, -, -, -, i0, i1, -⟩ := idx_facts t
  show V m c main_call0_v1 (((cfg0.win 4).blk t).view.emb (ix2 (0 : Fin 1) e)) = b2 m c (ix1 e)
  have h : ((cfg0.win 4).blk t).view.emb (ix2 (0 : Fin 1) e) = ix2 (0 : Fin 1) e := by
    funext a; apply Fin.ext
    match a with
    | ⟨0, _⟩ => show win0_4.index t (0 : Fin 2) * 1 + 1 * 0 = 0; omega
    | ⟨1, _⟩ => show win0_4.index t (1 : Fin 2) * 8 + 1 * e.val = e.val; omega
  rw [h]
  exact b2Row_apply m c e

/-- The projection's block is the whole array at every point. -/
theorem wpBlock_eq (c : Dev nD) (t : Fin cfg0.N) : (iblk m c 5 t : FVec Ideal S16x8 .f32) = wp m c := by
  obtain ⟨-, -, -, -, -, -, -, -, -, -, i0, i1, -⟩ := idx_facts t
  funext y
  show V m c main_arg5 (((cfg0.win 5).blk t).view.emb y) = wp m c y
  have h : ((cfg0.win 5).blk t).view.emb y = y := by
    funext a; apply Fin.ext
    match a with
    | ⟨0, _⟩ => show win0_5.index t (0 : Fin 2) * 16 + 1 * (y 0).val = (y 0).val; omega
    | ⟨1, _⟩ => show win0_5.index t (1 : Fin 2) * 8 + 1 * (y 1).val = (y 1).val; omega
  rw [h]
  exact congrFun (V_main_arg5 m c) y

/-! ## What a point writes back -/

/-- Point `t` writes back block `t` of the gates of all edges. -/
theorem flushedGate_eq (c : Dev nD) (t : Fin cfg0.N) :
    (dats m 0 c).flushed 6 t
      = ((cfg0.win 6).blk t).view.read (Elt Ideal) (gateAll (feats m c) (w1 m c) (b1 m c) (w2 m c) (b2 m c)) := by
  rw [flushed6]
  unfold out0_6
  rw [View.canon_unit_zero hz2]
  simp only [View.ld_unit_zero (S := S5120x16) hz2, View.ld_unit_zero (S := S16x32) hz2, View.ld_unit_zero (S := S1x32) hz2,
    View.ld_unit_zero (S := S32x8) hz2, View.ld_unit_zero (S := S1x8) hz2]
  have ht := lt_points t
  obtain ⟨-, -, -, -, -, -, -, -, -, -, -, -, i0, i1, -⟩ := idx_facts t
  funext j
  obtain ⟨p, e, rfl⟩ : ∃ (p : Fin 5120) (e : Fin 8), j = ix2 p e := ⟨j 0, j 1, eq_ix2 j⟩
  have hp := p.isLt
  show k0_pay1 (F := Ideal) (iblk m c 0 t) (iblk m c 1 t) (iblk m c 2 t) (iblk m c 3 t) (iblk m c 4 t) (ix2 p e)
    = gateAll (feats m c) (w1 m c) (b1 m c) (w2 m c) (b2 m c) (((cfg0.win 6).blk t).view.emb (ix2 p e))
  have h : ((cfg0.win 6).blk t).view.emb (ix2 p e) = ix2 (⟨5120 * t.val + p.val, by omega⟩ : Fin 3200000) e := by
    funext a; apply Fin.ext
    match a with
    | ⟨0, _⟩ => show win0_6.index t (0 : Fin 2) * 5120 + 1 * p.val = 5120 * t.val + p.val; omega
    | ⟨1, _⟩ => show win0_6.index t (1 : Fin 2) * 8 + 1 * e.val = e.val; omega
  rw [h]
  exact point_gate (iblk m c 0 t) (iblk m c 1 t) (iblk m c 2 t) (iblk m c 3 t) (iblk m c 4 t)
    (feats m c) (w1 m c) (b1 m c) (w2 m c) (b2 m c) p e ⟨5120 * t.val + p.val, by omega⟩
    (fun k => featBlock_apply m c t p k _ rfl) (w1Block_eq m c t) (b1Block_apply m c t) (w2Block_eq m c t) (b2Block_apply m c t)

/-- Point `t` writes back block `t` of the fused scores of all edges. -/
theorem flushedFused_eq (c : Dev nD) (t : Fin cfg0.N) :
    (dats m 0 c).flushed 7 t
      = ((cfg0.win 7).blk t).view.read (Elt Ideal) (fusedAll (feats m c) (w1 m c) (b1 m c) (w2 m c) (b2 m c) (wp m c)) := by
  rw [flushed7]
  unfold out0_7
  rw [View.canon_unit_zero hz1]
  simp only [View.ld_unit_zero (S := S5120x16) hz2, View.ld_unit_zero (S := S16x32) hz2, View.ld_unit_zero (S := S1x32) hz2,
    View.ld_unit_zero (S := S32x8) hz2, View.ld_unit_zero (S := S1x8) hz2, View.ld_unit_zero (S := S16x8) hz2]
  have ht := lt_points t
  obtain ⟨-, -, -, -, -, -, -, -, -, -, -, -, -, -, i0⟩ := idx_facts t
  funext j
  obtain ⟨p, rfl⟩ : ∃ p : Fin 5120, j = ix1 p := ⟨j 0, eq_ix1 j⟩
  have hp := p.isLt
  show k0_pay2 (F := Ideal) (iblk m c 0 t) (iblk m c 1 t) (iblk m c 2 t) (iblk m c 3 t) (iblk m c 4 t) (iblk m c 5 t) (ix1 p)
    = fusedAll (feats m c) (w1 m c) (b1 m c) (w2 m c) (b2 m c) (wp m c) (((cfg0.win 7).blk t).view.emb (ix1 p))
  have h : ((cfg0.win 7).blk t).view.emb (ix1 p) = ix1 (⟨5120 * t.val + p.val, by omega⟩ : Fin 3200000) := by
    funext a; apply Fin.ext
    match a with
    | ⟨0, _⟩ => show win0_7.index t (0 : Fin 1) * 5120 + 1 * p.val = 5120 * t.val + p.val; omega
  rw [h]
  exact point_fused (iblk m c 0 t) (iblk m c 1 t) (iblk m c 2 t) (iblk m c 3 t) (iblk m c 4 t) (iblk m c 5 t)
    (feats m c) (w1 m c) (b1 m c) (w2 m c) (b2 m c) (wp m c) p ⟨5120 * t.val + p.val, by omega⟩
    (fun k => featBlock_apply m c t p k _ rfl) (w1Block_eq m c t) (b1Block_apply m c t) (w2Block_eq m c t) (b2Block_apply m c t)
    (wpBlock_eq m c t)

/-! ## The blocks tile the result arrays -/

/-- An index of the gate array is in point `t`'s block iff each coordinate is in the block's range on its axis. -/
theorem mem_gateBlk (t : Fin cfg0.N) (i : S3200000x8.Idx) :
    i ∈ ((cfg0.win 6).blk t).view.set ↔ ∀ a : Fin 2, win0_6.index t a * S5120x8.size a ≤ (i a).val ∧ (i a).val < win0_6.index t a * S5120x8.size a + S5120x8.size a := by
  show i ∈ ((View.whole main_v0_1).slice (win0_6.rect t)).set ↔ _
  rw [View.set_slice_whole, Rect.mem_set_unit]
  exact Iff.rfl

/-- An index of the fused array is in point `t`'s block iff it is in the block's range of rows. -/
theorem mem_fusedBlk (t : Fin cfg0.N) (i : S3200000.Idx) :
    i ∈ ((cfg0.win 7).blk t).view.set ↔ ∀ a : Fin 1, win0_7.index t a * S5120.size a ≤ (i a).val ∧ (i a).val < win0_7.index t a * S5120.size a + S5120.size a := by
  show i ∈ ((View.whole main_v0_0).slice (win0_7.rect t)).set ↔ _
  rw [View.set_slice_whole, Rect.mem_set_unit]
  exact Iff.rfl

/-- Row `r` of the gate array lies in the block of point `r / 5120`, which writes back. -/
theorem gate_cover (i : S3200000x8.Idx) :
    ∃ t : Fin cfg0.N, (cfg0.win 6).flush t = true ∧ i ∈ ((cfg0.win 6).blk t).view.set := by
  have h0 : (i 0).val < 3200000 := (i 0).isLt
  have h1 : (i 1).val < 8 := (i 1).isLt
  let t : Fin cfg0.N := ⟨(i 0).val / 5120, by rw [show cfg0.N = 625 from N_0]; omega⟩
  obtain ⟨-, -, -, -, -, -, -, -, -, -, -, -, i0, i1, -⟩ := idx_facts t
  have i0' : win0_6.index t (0 : Fin 2) = (i 0).val / 5120 := i0
  refine ⟨t, flush0_6 t, ?_⟩
  rw [mem_gateBlk]
  intro a
  match a with
  | ⟨0, _⟩ => show win0_6.index t (0 : Fin 2) * 5120 ≤ (i 0).val ∧ (i 0).val < win0_6.index t (0 : Fin 2) * 5120 + 5120; omega
  | ⟨1, _⟩ => show win0_6.index t (1 : Fin 2) * 8 ≤ (i 1).val ∧ (i 1).val < win0_6.index t (1 : Fin 2) * 8 + 8; omega

/-- Row `r` of the fused array lies in the block of point `r / 5120`, which writes back. -/
theorem fused_cover (i : S3200000.Idx) :
    ∃ t : Fin cfg0.N, (cfg0.win 7).flush t = true ∧ i ∈ ((cfg0.win 7).blk t).view.set := by
  have h0 : (i 0).val < 3200000 := (i 0).isLt
  let t : Fin cfg0.N := ⟨(i 0).val / 5120, by rw [show cfg0.N = 625 from N_0]; omega⟩
  obtain ⟨-, -, -, -, -, -, -, -, -, -, -, -, -, -, i0⟩ := idx_facts t
  have i0' : win0_7.index t (0 : Fin 1) = (i 0).val / 5120 := i0
  refine ⟨t, flush0_7 t, ?_⟩
  rw [mem_fusedBlk]
  intro a
  match a with
  | ⟨0, _⟩ => show win0_7.index t (0 : Fin 1) * 5120 ≤ (i 0).val ∧ (i 0).val < win0_7.index t (0 : Fin 1) * 5120 + 5120; omega

/-! ## The result arrays after the run -/

/-- The gate array ends holding the gates of all edges. -/
theorem finalGate (c : Dev nD) :
    (dats m 0 c).arrAt 6 cfg0.N = gateAll (feats m c) (w1 m c) (b1 m c) (w2 m c) (b2 m c) :=
  (dats m 0 c).arrAt_eq_of_cover 6 _ (fun t _ => flushedGate_eq m c t) gate_cover

/-- The fused array ends holding the fused scores of all edges. -/
theorem finalFused (c : Dev nD) :
    (dats m 0 c).arrAt 7 cfg0.N = fusedAll (feats m c) (w1 m c) (b1 m c) (w2 m c) (b2 m c) (wp m c) :=
  (dats m 0 c).arrAt_eq_of_cover 7 _ (fun t _ => flushedFused_eq m c t) fused_cover

/-- The run, read: every weakly fair execution ends with the fused array at the fused scores of all edges, the gate array at
    their gates, and the six argument arrays unchanged. -/
theorem run : θ_run defs (onTc (τ := τ) (main (F := Ideal))) ⟨m, fun _ => 0, ρ⟩ fun r => ∀ c : Dev nD,
      r.2.mem ((c : Thread nD τ).loc main_v0_0) = fusedAll (feats m c) (w1 m c) (b1 m c) (w2 m c) (b2 m c) (wp m c)
      ∧ r.2.mem ((c : Thread nD τ).loc main_v0_1) = gateAll (feats m c) (w1 m c) (b1 m c) (w2 m c) (b2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).2.1.trans (finalFused m c), (h c).1.trans (finalGate m c), (h c).2.2⟩)
    (run_blocks m ρ)

end Cert.KernelIdeal.Blocks

end
-- ==== Proof.RefRow.lean ====
/-
  The reference, read row by row.

  The reference treats all 3,200,000 edges at once: two affine layers with a ReLU between them, a softmax along the eight
  experts, the expert projection, and the gate-weighted sum. Each operation's result is read at an index from its operands
  at an index; composed, every stage at row `r` is the specification's function (`Cert.EdgeGate`) of row `r` of the
  features. Two operations of the reference have no counterpart in the specification and change nothing: the logits are
  divided by the constant one (the temperature), and before it is subtracted the row maximum is compared with −∞.

  The row maximum is a reduction along the last axis, read as the fold of `max` over the eight experts from the initial
  value (`Cert.LastAxis.hostRowMax_apply`); the two row sums start from the zero word, which is the zero of addition.
-/
import proofs.«155465_g88742614270593_cont_sun_c4_34_7_alg».proof.Proof.Gen.ReferenceIdeal.Read
import proofs.«155465_g88742614270593_cont_sun_c4_34_7_alg».proof.Proof.GateArrays
import proofs.«155465_g88742614270593_cont_sun_c4_34_7_alg».proof.Proof.LibLastAxis
import Idealize.ShloMosaic.Lib.ValueIdx
import Idealize.ShloMosaic.PureOps.Ideal.Laws

noncomputable section

namespace Cert.ReferenceIdeal.Row

open Cert.ReferenceIdeal Cert.ReferenceIdeal.Gen Cert.ReferenceIdeal.Read Idealize.ShloMosaic Idealize.ShloMosaic.ValueIdx
open Cert.EdgeGate Cert.LastAxis

variable (a0 : FVec Ideal S3200000x16 .f32) (a1 : FVec Ideal S16x32 .f32) (a2 : FVec Ideal S32 .f32)
  (a3 : FVec Ideal S32x8 .f32) (a4 : FVec Ideal S8 .f32) (a5 : FVec Ideal S16x8 .f32)

/-! ## Where each operation reads its operands, in coordinates -/

theorem feat_of_hidden (r : Fin 3200000) (j : Fin 32) (k : Fin 16) : lidx_main_v0 (ix2 r j) k = ix2 r k :=
  funext fun a => Fin.ext (by match a with | ⟨0, _⟩ => rfl | ⟨1, _⟩ => rfl)
theorem w1_of_hidden (r : Fin 3200000) (j : Fin 32) (k : Fin 16) : ridx_main_v0 (ix2 r j) k = ix2 k j :=
  funext fun a => Fin.ext (by match a with | ⟨0, _⟩ => rfl | ⟨1, _⟩ => rfl)
theorem b1_of_hidden (r : Fin 3200000) (j : Fin 32) : idx_main_v1 (idx_main_v2 (ix2 r j)) = ix1 j :=
  funext fun a => Fin.ext (by match a with | ⟨0, _⟩ => rfl)
theorem hid_of_logit (r : Fin 3200000) (e : Fin 8) (k : Fin 32) : lidx_main_v5 (ix2 r e) k = ix2 r k :=
  funext fun a => Fin.ext (by match a with | ⟨0, _⟩ => rfl | ⟨1, _⟩ => rfl)
theorem w2_of_logit (r : Fin 3200000) (e : Fin 8) (k : Fin 32) : ridx_main_v5 (ix2 r e) k = ix2 k e :=
  funext fun a => Fin.ext (by match a with | ⟨0, _⟩ => rfl | ⟨1, _⟩ => rfl)
theorem b2_of_logit (r : Fin 3200000) (e : Fin 8) : idx_main_v6 (idx_main_v7 (ix2 r e)) = ix1 e :=
  funext fun a => Fin.ext (by match a with | ⟨0, _⟩ => rfl)
theorem max_of_entry (r : Fin 3200000) (e : Fin 8) : idx_main_v14 (idx_main_v15 (ix2 r e)) = ix1 r :=
  funext fun a => Fin.ext (by match a with | ⟨0, _⟩ => rfl)
theorem sum_of_entry (r : Fin 3200000) (e : Fin 8) (k : Fin 8) :
    idx_main_v18 (idx_main_v19 (idx_main_v20 (ix2 r e))) k = ix2 r k :=
  funext fun a => Fin.ext (by match a with | ⟨0, _⟩ => rfl | ⟨1, _⟩ => rfl)
theorem feat_of_score (r : Fin 3200000) (e : Fin 8) (k : Fin 16) : lidx_main_v22 (ix2 r e) k = ix2 r k :=
  funext fun a => Fin.ext (by match a with | ⟨0, _⟩ => rfl | ⟨1, _⟩ => rfl)
theorem wp_of_score (r : Fin 3200000) (e : Fin 8) (k : Fin 16) : ridx_main_v22 (ix2 r e) k = ix2 k e :=
  funext fun a => Fin.ext (by match a with | ⟨0, _⟩ => rfl | ⟨1, _⟩ => rfl)
theorem entry_of_fused (r : Fin 3200000) (k : Fin 8) : idx_main_v24 (ix1 r) k = ix2 r k :=
  funext fun a => Fin.ext (by match a with | ⟨0, _⟩ => rfl | ⟨1, _⟩ => rfl)

/-! ## The stages at a row -/

/-- The ReLU's output at `(r, j)` is hidden unit `j` of row `r`. -/
theorem hidden_apply (r : Fin 3200000) (j : Fin 32) :
    val_main_v4 (F := Ideal) a0 a1 a2 (ix2 r j) = hiddenUnit (rowOf a0 r) (tableOf a1) (vecOf a2) j := by
  rw [val_main_v4_apply, val_main_v3_apply, val_main_v0_apply, val_main_v2_apply, val_main_v1_apply,
    val_main_call0_v0_apply, val_main_call0_cst_apply]
  simp only [feat_of_hidden, w1_of_hidden, b1_of_hidden]
  rfl

/-- The logits after the division by one, at `(r, e)`, are row `r`'s logit of expert `e`. -/
theorem logit_apply (r : Fin 3200000) (e : Fin 8) :
    val_main_v10 (F := Ideal) a0 a1 a2 a3 a4 (ix2 r e)
      = logit (rowOf a0 r) (tableOf a1) (vecOf a2) (tableOf a3) (vecOf a4) e := by
  rw [val_main_v10_apply, val_main_v8_apply, val_main_v5_apply, val_main_v7_apply, val_main_v6_apply,
    val_main_v9_apply, val_main_cst_apply]
  simp only [hid_of_logit, w2_of_logit, b2_of_logit, hidden_apply, Ideal.hostDivf_def, Ideal.ofBits_def, div_oneWord]
  rfl

/-- The maximum that is subtracted, at row `r`, is the row's largest logit: the comparison with −∞ changes nothing. -/
theorem rowMax_apply' (r : Fin 3200000) :
    val_main_v13 (F := Ideal) a0 a1 a2 a3 a4 (ix1 r)
      = rowMax (rowOf a0 r) (tableOf a1) (vecOf a2) (tableOf a3) (vecOf a4) := by
  rw [val_main_v13_apply, val_main_v12_apply, val_main_cst_1_apply]
  refine (max_negInfWord _).trans ?_
  unfold val_main_v11
  refine (hostRowMax_apply (val_main_v10 (F := Ideal) a0 a1 a2 a3 a4) (val_main_cst_0 (F := Ideal))
    reducesTo_S3200000x8_S3200000_d1 (by decide) h_S_ r).trans ?_
  simp only [logit_apply]
  rfl

/-- The exponentials at `(r, e)` are row `r`'s unnormalised weights. -/
theorem unnorm_apply (r : Fin 3200000) (e : Fin 8) :
    val_main_v17 (F := Ideal) a0 a1 a2 a3 a4 (ix2 r e)
      = unnorm (rowOf a0 r) (tableOf a1) (vecOf a2) (tableOf a3) (vecOf a4) e := by
  rw [val_main_v17_apply, val_main_v16_apply, val_main_v15_apply, val_main_v14_apply]
  simp only [max_of_entry, logit_apply, rowMax_apply', Ideal.hostUnary_exp_def, Ideal.subf_def]
  rfl

/-- The softmax at `(r, e)` is row `r`'s gate for expert `e`. -/
theorem gate_apply (r : Fin 3200000) (e : Fin 8) :
    val_main_v21 (F := Ideal) a0 a1 a2 a3 a4 (ix2 r e)
      = gate (rowOf a0 r) (tableOf a1) (vecOf a2) (tableOf a3) (vecOf a4) e := by
  rw [val_main_v21_apply, val_main_v20_apply, val_main_v19_apply, val_main_v18_apply, val_main_cst_2_apply]
  simp only [sum_of_entry, unnorm_apply, Ideal.hostDivf_def, Ideal.ofBits_def, Ideal.ofBits_zero_f32, zero_add]
  rfl

/-- The last sum at row `r` is the row's fused score. -/
theorem fused_apply (r : Fin 3200000) :
    val_main_v24 (F := Ideal) a0 a1 a2 a3 a4 a5 (ix1 r)
      = fused (rowOf a0 r) (tableOf a1) (vecOf a2) (tableOf a3) (vecOf a4) (tableOf a5) := by
  have hz : (val_main_cst_3 (F := Ideal)) (Shape.Idx.first h_S_) = 0 := Ideal.ofBits_zero_f32
  rw [val_main_v24_apply, hz, zero_add]
  unfold fused
  refine Finset.sum_congr rfl fun k _ => ?_
  rw [entry_of_fused, val_main_v23_apply, gate_apply, val_main_v22_apply]
  unfold score
  refine congrArg (gate (rowOf a0 r) (tableOf a1) (vecOf a2) (tableOf a3) (vecOf a4) k * ·) ?_
  refine Finset.sum_congr rfl fun q _ => ?_
  rw [feat_of_score, wp_of_score]

/-! ## The two results as whole arrays -/

/-- The reference's gate array is `gateAll` of its arguments. -/
theorem gate_eq : val_main_v21 (F := Ideal) a0 a1 a2 a3 a4 = gateAll a0 a1 a2 a3 a4 := by
  funext i
  obtain ⟨r, e, rfl⟩ : ∃ (r : Fin 3200000) (e : Fin 8), i = ix2 r e := ⟨i 0, i 1, eq_ix2 i⟩
  exact gate_apply a0 a1 a2 a3 a4 r e

/-- The reference's fused array is `fusedAll` of its arguments. -/
theorem fused_eq : val_main_v24 (F := Ideal) a0 a1 a2 a3 a4 a5 = fusedAll a0 a1 a2 a3 a4 a5 := by
  funext i
  obtain ⟨r, rfl⟩ : ∃ r : Fin 3200000, i = ix1 r := ⟨i 0, eq_ix1 i⟩
  exact fused_apply a0 a1 a2 a3 a4 a5 r

end Cert.ReferenceIdeal.Row

end
-- ==== Proof.lean ====
/-
  A fused soft gate over eight experts for 3,200,000 edges, computed block by block, against the same gate computed on all
  edges at once.

  Each edge has sixteen features. A two-layer perceptron (thirty-two hidden units with a ReLU) gives eight logits per edge;
  a softmax along the experts, shifted by the edge's largest logit, gives the gate; the fused score is the gate-weighted sum
  of the edge's eight expert projections. The kernel walks the edges in 625 blocks of 5120 and computes gate and fused score
  of a block in one pass; the reference applies each operation to the whole arrays, and besides divides the logits by the
  constant one and compares the row maximum with −∞ before subtracting it.

  On the extended reals both are the same function of the arguments, edge by edge, and no finiteness is needed for it: every
  step of either program is the corresponding step of one row function (`Cert.EdgeGate`), a sum is a sum whatever its
  order, dividing by one and taking the maximum with −∞ change nothing at any extended real, and an edge's result depends
  on that edge's features alone, so the tiling into blocks does not matter.

  * `Proof/GateSpec.lean`, `Proof/GateArrays.lean`: one edge's gate and fused score, and the two whole-array functions.
  * `Proof/LibLastAxis.lean`: a reduction along a matrix's last axis and the kept column, read at an index.
  * `Proof/KernelProducts.lean`, `Proof/KernelRow.lean`: the block body's three products and five stages, row by row.
  * `Proof/KernelBlocks.lean`: each point's blocks, what it writes back, the tiling, and the kernel's run.
  * `Proof/RefRow.lean`: the reference's stages row by row, and its two results as the whole-array functions.

  The three frames are the generated frame runs; the idealization rewrote nothing, so `preserves` has nothing to state.
-/
import proofs.«155465_g88742614270593_cont_sun_c4_34_7_alg».proof.Defs
import proofs.«155465_g88742614270593_cont_sun_c4_34_7_alg».proof.Proof.Gen.Kernel
import proofs.«155465_g88742614270593_cont_sun_c4_34_7_alg».proof.Proof.Gen.Kernel.Frame
import proofs.«155465_g88742614270593_cont_sun_c4_34_7_alg».proof.Proof.Gen.KernelIdeal
import proofs.«155465_g88742614270593_cont_sun_c4_34_7_alg».proof.Proof.Gen.KernelIdeal.Frame
import proofs.«155465_g88742614270593_cont_sun_c4_34_7_alg».proof.Proof.Gen.KernelIdeal.Value
import proofs.«155465_g88742614270593_cont_sun_c4_34_7_alg».proof.Proof.Gen.ReferenceIdeal
import proofs.«155465_g88742614270593_cont_sun_c4_34_7_alg».proof.Proof.Gen.ReferenceIdeal.Run
import proofs.«155465_g88742614270593_cont_sun_c4_34_7_alg».proof.Proof.Gen.ReferenceIdeal.Read
import proofs.«155465_g88742614270593_cont_sun_c4_34_7_alg».proof.Proof.Gen.Pre_finite_inputs
import proofs.«155465_g88742614270593_cont_sun_c4_34_7_alg».proof.Proof.KernelBlocks
import proofs.«155465_g88742614270593_cont_sun_c4_34_7_alg».proof.Proof.RefRow
import Idealize.ShloMosaic.Adequacy
import Idealize.ShloMosaic.Init

noncomputable section

namespace Cert.Proof

open Idealize.ShloMosaic Idealize.SL.Sem Cert.EdgeGate

/-- The kernel as printed terminates without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the six arguments both programs end with the fused scores and the gates of all edges:
    the kernel's two result arrays are tiled by its blocks, each of which holds the whole-array functions' values, and
    the reference's two results are those functions stage by stage. -/
theorem algebraic : Cert.algebraic_KernelIdeal_ReferenceIdeal := by
  intro m ρ m' ρ' _ hagree
  refine ⟨fun c => fusedAll (Cert.KernelIdeal.Blocks.feats m c) (Cert.KernelIdeal.Blocks.w1 m c) (Cert.KernelIdeal.Blocks.b1 m c)
      (Cert.KernelIdeal.Blocks.w2 m c) (Cert.KernelIdeal.Blocks.b2 m c) (Cert.KernelIdeal.Blocks.wp m c),
    fun c => gateAll (Cert.KernelIdeal.Blocks.feats m c) (Cert.KernelIdeal.Blocks.w1 m c) (Cert.KernelIdeal.Blocks.b1 m c)
      (Cert.KernelIdeal.Blocks.w2 m c) (Cert.KernelIdeal.Blocks.b2 m c),
    Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5⟩ := hagree c
    rw [Cert.ReferenceIdeal.Read.val_main_v24_eq, Cert.ReferenceIdeal.Row.fused_eq, e0, e1, e2, e3, e4, e5]
  · obtain ⟨e0, e1, e2, e3, e4, e5⟩ := hagree c
    refine (Cert.ReferenceIdeal.Read.val_main_v21_eq _ _ _ _ _).trans ?_
    rw [Cert.ReferenceIdeal.Row.gate_eq, e0, e1, e2, e3, e4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
